-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S64x8192 : Shape := ⟨2, ![64, 8192]⟩
abbrev S8192x8 : Shape := ⟨2, ![8192, 8]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel

variable [Facts]

def fn {F : FTy → Type} [FloatOps F] (main_arg0 : IVec S8192x1024 32) (main_arg1 : FVec F S64x8192 .f32) (main_arg2 : IVec S8192x8 32) : IVec S_ 1 :=
  let main_v0 : FVec F S64x8192 .f32 := Host.absf main_arg1
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  main_v3
-- ==== Kernel.lean ====
abbrev S8192x1024 : Shape := ⟨2, ![8192, 1024]⟩
abbrev S64x8192 : Shape := ⟨2, ![64, 8192]⟩
abbrev S8192x8 : Shape := ⟨2, ![8192, 8]⟩
abbrev S8192x8192 : Shape := ⟨2, ![8192, 8192]⟩
abbrev S128x128 : Shape := ⟨2, ![128, 128]⟩
abbrev S8x128 : Shape := ⟨2, ![8, 128]⟩
abbrev S128x8 : Shape := ⟨2, ![128, 8]⟩
abbrev S128x1024 : Shape := ⟨2, ![128, 1024]⟩
abbrev S64x128 : Shape := ⟨2, ![64, 128]⟩
abbrev S128x8x1 : Shape := ⟨3, ![128, 8, 1]⟩
abbrev S128x8x8 : Shape := ⟨3, ![128, 8, 8]⟩
abbrev S128x64 : Shape := ⟨2, ![128, 64]⟩
abbrev S128x128x1 : Shape := ⟨3, ![128, 128, 1]⟩
abbrev S128x128x8 : Shape := ⟨3, ![128, 128, 8]⟩
abbrev S128x8x128 : Shape := ⟨3, ![128, 8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .i32⟩
  | .hbm, ⟨1, _⟩ => ⟨S64x8192, .f32⟩
  | .hbm, ⟨2, _⟩ => ⟨S8192x8, .i32⟩
  | .hbm, ⟨3, _⟩ => ⟨S8192x8192, .f32⟩
  | .local _ .vmem, ⟨0, _⟩ => ⟨S128x128, .i32⟩
  | .local _ .vmem, ⟨1, _⟩ => ⟨S128x128, .i32⟩
  | .local _ .vmem, ⟨2, _⟩ => ⟨S8x128, .f32⟩
  | .local _ .vmem, ⟨3, _⟩ => ⟨S8x128, .f32⟩
  | .local _ .vmem, ⟨4, _⟩ => ⟨S128x8, .i32⟩
  | .local _ .vmem, ⟨5, _⟩ => ⟨S128x8, .i32⟩
  | .local _ .vmem, ⟨6, _⟩ => ⟨S128x1024, .f32⟩
  | .local _ .vmem, ⟨7, _⟩ => ⟨S128x1024, .f32⟩
  | .local _ .vmem, ⟨8, _⟩ => ⟨S64x128, .f32⟩
  | _, _ => ⟨S8192x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 8], ![false, false]⟩

def k0_mult1 (i : grid0.Coords) : BitVec 32 :=
  let arg1 : BitVec 32 := BitVec.ofNat 32 (i 1).val
  let c8_i32_10 : BitVec 32 := 8#32
  let v48 : BitVec 32 := Scalar.muli arg1 c8_i32_10
  v48
def k0_off1 (i : grid0.Coords) : Fin 2 → Nat :=
  let arg1 : BitVec 32 := BitVec.ofNat 32 (i 1).val
  let c8_i32_10 : BitVec 32 := 8#32
  let v48 : BitVec 32 := Scalar.muli arg1 c8_i32_10
  let v49 : BitVec 32 := v48
  let v50 : Index := Scalar.indexCast v49
  let c0_11 : Index := 0#32
  ![v50.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S128x8_S128x8_0_0 : ∀ a, (![0, 0] : Fin 2 → Nat) a + S128x8.size a ≤ S128x8.size a
  h_S128x8 : 0 < S128x8.numel
  shapeCasts_S128x8_S128x8x1 : S128x8.ShapeCasts S128x8x1
  concatenates_S128x8x1_S128x8x1_S128x8x1_S128x8x1_S128x8x1_S128x8x1_S128x8x1_S128x8x1_S128x8x8_d2 : Shape.Concatenates [S128x8x1, S128x8x1, S128x8x1, S128x8x1, S128x8x1, S128x8x1, S128x8x1, S128x8x1] S128x8x8 2
  shapeCasts_S128x8x8_S128x64 : S128x8x8.ShapeCasts S128x64
  transposes_S128x64_p1_0_S64x128 : S128x64.Transposes [1, 0] S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128x1 : S128x128.ShapeCasts S128x128x1
  concatenates_S128x128x1_S128x128x1_S128x128x1_S128x128x1_S128x128x1_S128x128x1_S128x128x1_S128x128x1_S128x128x8_d2 : Shape.Concatenates [S128x128x1, S128x128x1, S128x128x1, S128x128x1, S128x128x1, S128x128x1, S128x128x1, S128x128x1] S128x128x8 2
  shapeCasts_S128x128x8_S128x1024 : S128x128x8.ShapeCasts S128x1024
  shapeCasts_S128x1024_S128x8x128 : S128x1024.ShapeCasts S128x8x128
  h_S8x128 : 0 < S8x128.numel
  transposes_S8x128_p1_0_S128x8 : S8x128.Transposes [1, 0] S128x8
  inb_S8x128_S8x128_0_0 : ∀ a, (![0, 0] : Fin 2 → Nat) a + S8x128.size a ≤ S8x128.size a
  broadcasts_S128x8x1_S128x8x128 : S128x8x1.Broadcasts S128x8x128
  shapeCasts_S128x8x128_S128x1024 : S128x8x128.ShapeCasts S128x1024
  inb_S128x1024_S128x1024_0_0 : ∀ a, (![0, 0] : Fin 2 → Nat) a + S128x1024.size a ≤ S128x1024.size a
  h_S128x1024 : 0 < S128x1024.numel
  hrank0 : 0 < grid0.rank
  k0_mult1_dvd : ∀ i : grid0.Coords, 8 ∣ (k0_mult1 i).toNat
  k0_off1_inb : ∀ i : grid0.Coords, ∀ a, (k0_off1 i) a + S8x128.size a ≤ S64x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x1024.size a
  hwx0_0 : ∀ i : grid0.Coords, EltTy.bits .i32 = 32 ∨ (Rect.block (s := S8192x1024) S128x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x8192.size a
  hwx0_1 : ∀ i : grid0.Coords, EltTy.bits .f32 = 32 ∨ (Rect.block (s := S64x8192) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8.size a ≤ S8192x8.size a
  hwx0_2 : ∀ i : grid0.Coords, EltTy.bits .i32 = 32 ∨ (Rect.block (s := S8192x8) S128x8.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S8192x8192.size a
  hwx0_3 : ∀ i : grid0.Coords, EltTy.bits .f32 = 32 ∨ (Rect.block (s := S8192x8192) S128x1024.size (cc0_transform_3 i) (hinb0_3 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S64x8192 : Shape := ⟨2, ![64, 8192]⟩
abbrev S8192x8 : Shape := ⟨2, ![8192, 8]⟩
abbrev S8 : Shape := ⟨1, ![8]⟩
abbrev S_ : Shape := ⟨0, ![]⟩
abbrev S8192x1024x1 : Shape := ⟨3, ![8192, 1024, 1]⟩
abbrev S1x1x8 : Shape := ⟨3, ![1, 1, 8]⟩
abbrev S8192x1024x8 : Shape := ⟨3, ![8192, 1024, 8]⟩
abbrev S8192x8192 : Shape := ⟨2, ![8192, 8192]⟩
abbrev S8192x8x1 : Shape := ⟨3, ![8192, 8, 1]⟩
abbrev S8192x8x8 : Shape := ⟨3, ![8192, 8, 8]⟩
abbrev S8192x64 : Shape := ⟨2, ![8192, 64]⟩
abbrev S8192x64x128 : Shape := ⟨3, ![8192, 64, 128]⟩
abbrev S8192x64x1 : Shape := ⟨3, ![8192, 64, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .i32⟩
  | .hbm, ⟨1, _⟩ => ⟨S64x8192, .f32⟩
  | .hbm, ⟨2, _⟩ => ⟨S8192x8, .i32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S8192x1024x1, .i32⟩
  | .hbm, ⟨8, _⟩ => ⟨S1x1x8, .i32⟩
  | .hbm, ⟨9, _⟩ => ⟨S8192x1024x8, .i32⟩
  | .hbm, ⟨10, _⟩ => ⟨S8192x1024x8, .i32⟩
  | .hbm, ⟨11, _⟩ => ⟨S8192x1024x8, .i32⟩
  | .hbm, ⟨12, _⟩ => ⟨S_, .i32⟩
  | .hbm, ⟨13, _⟩ => ⟨S8192x1024x8, .i32⟩
  | .hbm, ⟨14, _⟩ => ⟨S8192x1024x8, .i32⟩
  | .hbm, ⟨15, _⟩ => ⟨S8192x8192, .i32⟩
  | .hbm, ⟨16, _⟩ => ⟨S8, .i32⟩
  | .hbm, ⟨17, _⟩ => ⟨S_, .i32⟩
  | .hbm, ⟨18, _⟩ => ⟨S8, .i32⟩
  | .hbm, ⟨19, _⟩ => ⟨S8, .i32⟩
  | .hbm, ⟨20, _⟩ => ⟨S8192x8x1, .i32⟩
  | .hbm, ⟨21, _⟩ => ⟨S1x1x8, .i32⟩
  | .hbm, ⟨22, _⟩ => ⟨S8192x8x8, .i32⟩
  | .hbm, ⟨23, _⟩ => ⟨S8192x8x8, .i32⟩
  | .hbm, ⟨24, _⟩ => ⟨S8192x8x8, .i32⟩
  | .hbm, ⟨25, _⟩ => ⟨S_, .i32⟩
  | .hbm, ⟨26, _⟩ => ⟨S8192x8x8, .i32⟩
  | .hbm, ⟨27, _⟩ => ⟨S8192x8x8, .i32⟩
  | .hbm, ⟨28, _⟩ => ⟨S8192x64, .i32⟩
  | .hbm, ⟨29, _⟩ => ⟨S8192x64, .f32⟩
  | .hbm, ⟨30, _⟩ => ⟨S8192x64x128, .i32⟩
  | .hbm, ⟨31, _⟩ => ⟨S8192x64x128, .f32⟩
  | .hbm, ⟨32, _⟩ => ⟨S8192x64x1, .i32⟩
  | .hbm, ⟨33, _⟩ => ⟨S8192x64x1, .f32⟩
  | .hbm, ⟨34, _⟩ => ⟨S8192x64x128, .f32⟩
  | .hbm, ⟨35, _⟩ => ⟨S8192x64x128, .f32⟩
  | .hbm, ⟨36, _⟩ => ⟨S8192x64x1, .f32⟩
  | .hbm, ⟨37, _⟩ => ⟨S8192x64x128, .f32⟩
  | .hbm, ⟨38, _⟩ => ⟨S8192x64x128, .f32⟩
  | .hbm, ⟨39, _⟩ => ⟨S8192x8192, .f32⟩
  | _, _ => ⟨S8192x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8192x1024_S8192x1024x1_0_1 : S8192x1024.BroadcastsInDim S8192x1024x1 (![0, 1] : Fin 2 → Fin S8192x1024x1.rank)
  bcast_S8_S1x1x8_2 : S8.BroadcastsInDim S1x1x8 (![2] : Fin 1 → Fin S1x1x8.rank)
  bcast_S8192x1024x1_S8192x1024x8_0_1_2 : S8192x1024x1.BroadcastsInDim S8192x1024x8 (![0, 1, 2] : Fin 3 → Fin S8192x1024x8.rank)
  bcast_S1x1x8_S8192x1024x8_0_1_2 : S1x1x8.BroadcastsInDim S8192x1024x8 (![0, 1, 2] : Fin 3 → Fin S8192x1024x8.rank)
  bcast_S_S8192x1024x8 : S_.BroadcastsInDim S8192x1024x8 (![] : Fin 0 → Fin S8192x1024x8.rank)
  shapeCasts_S8192x1024x8_S8192x8192 : S8192x1024x8.ShapeCasts S8192x8192
  bcast_S8192x8_S8192x8x1_0_1 : S8192x8.BroadcastsInDim S8192x8x1 (![0, 1] : Fin 2 → Fin S8192x8x1.rank)
  bcast_S8192x8x1_S8192x8x8_0_1_2 : S8192x8x1.BroadcastsInDim S8192x8x8 (![0, 1, 2] : Fin 3 → Fin S8192x8x8.rank)
  bcast_S1x1x8_S8192x8x8_0_1_2 : S1x1x8.BroadcastsInDim S8192x8x8 (![0, 1, 2] : Fin 3 → Fin S8192x8x8.rank)
  bcast_S_S8192x8x8 : S_.BroadcastsInDim S8192x8x8 (![] : Fin 0 → Fin S8192x8x8.rank)
  shapeCasts_S8192x8x8_S8192x64 : S8192x8x8.ShapeCasts S8192x64
  transposes_S64x8192_S8192x64_1_0 : S64x8192.Transposes [1, 0] S8192x64
  shapeCasts_S8192x8192_S8192x64x128 : S8192x8192.ShapeCasts S8192x64x128
  bcast_S8192x64_S8192x64x1_0_1 : S8192x64.BroadcastsInDim S8192x64x1 (![0, 1] : Fin 2 → Fin S8192x64x1.rank)
  bcast_S8192x64x1_S8192x64x128_0_1_2 : S8192x64x1.BroadcastsInDim S8192x64x128 (![0, 1, 2] : Fin 3 → Fin S8192x64x128.rank)
  shapeCasts_S8192x64x128_S8192x8192 : S8192x64x128.ShapeCasts S8192x8192

variable [Facts₀]

class Facts : Prop extends Facts₀ where

variable [Facts]
-- ==== Proof.Spec.lean ====
/-
  Per-group dequantization of packed four-bit fields, as ONE function of the three argument arrays.

  A 32-bit word packs eight four-bit fields, field `j` in bits `4 j` to `4 j + 3`. Reading field `j` is an arithmetic
  shift right by `4 j` followed by keeping the low four bits; for `j = 7` the shift brings copies of the sign bit in
  above bit 3, and the mask drops them, so the field is read whatever the word's sign.

  The result at row `n`, column `k` (both below 8192) is
      (field (k mod 8) of x[n, k / 8]  -  field ((k / 128) mod 8) of z[n, k / 1024])  *  s[k / 128, n]
  with both fields converted to floats first: the weight's field minus its group's zero point, times the group's scale,
  the group of column `k` being `k / 128` and the scales stored transposed. The subtraction and the product are the
  float instance's own, in this order, so nothing here depends on which float instance reads it.
-/
import Idealize.ShloMosaic.Lib.ValueIdx
import Idealize.ShloMosaic.Lib.KernelVsHost

noncomputable section

namespace Cert.Dequant

open Idealize.ShloMosaic Idealize.ShloMosaic.ValueIdx

variable {F : FTy → Type} [FloatOps F]

/-- Field `j` of a word: the arithmetic shift right by `4 j`, then the low four bits. -/
def nib (w : BitVec 32) (j : ℕ) : BitVec 32 :=
  IntOp.andi (IntOp.shrsi .vector w (BitVec.ofNat 32 (4 * j))) 15#32

/-- The shift amount `4 j` computed as a product of words, `j` below 8, is the word of `4 j`. -/
theorem shift_word : ∀ j : Fin 8, IntOp.muli (BitVec.ofNat 32 j.val) 4#32 = BitVec.ofNat 32 (4 * j.val) := by decide

/-- The same field read with the host's shift and a shift amount computed as `j * 4` on words: at 32 bits the two
    shifts are one function, and the product is the word of `4 j`. -/
theorem nib_host (w : BitVec 32) (j : Fin 8) :
    IntOp.andi (IntOp.shrsi .host w (IntOp.muli (BitVec.ofNat 32 j.val) 4#32)) 15#32 = nib w j.val := by
  unfold nib
  rw [shift_word j, shrsi_unit .host .vector]

/-- The packed weights, the transposed scales, the packed zero points and the result. -/
abbrev SX : Shape := ⟨2, ![8192, 1024]⟩
abbrev SS : Shape := ⟨2, ![64, 8192]⟩
abbrev SZ : Shape := ⟨2, ![8192, 8]⟩
abbrev SO : Shape := ⟨2, ![8192, 8192]⟩

/-- The dequantized array: at `(n, k)`, the weight's field minus its group's zero-point field, times the group's scale. -/
def deq (x : IVec SX 32) (s : FVec F SS .f32) (z : IVec SZ 32) : FVec F SO .f32 := fun i =>
  FloatOps.mulf
    (FloatOps.subf
      (FloatOps.sitofp .f32 (nib (x (ix2 (⟨(i 0).val, idx2_lt0 i⟩ : Fin 8192) (⟨(i 1).val / 8, by have := idx2_lt1 i; omega⟩ : Fin 1024))) ((i 1).val % 8)))
      (FloatOps.sitofp .f32 (nib (z (ix2 (⟨(i 0).val, idx2_lt0 i⟩ : Fin 8192) (⟨(i 1).val / 1024, by have := idx2_lt1 i; omega⟩ : Fin 8))) ((i 1).val / 128 % 8))))
    (s (ix2 (⟨(i 1).val / 128, by have := idx2_lt1 i; omega⟩ : Fin 64) (⟨(i 0).val, idx2_lt0 i⟩ : Fin 8192)))

end Cert.Dequant

end
-- ==== Proof.RefIsDeq.lean ====
/-
  The reference program's result is the specification `Cert.Dequant.deq`.

  The reference unpacks every word of the weights into its eight fields (a shift right by `4 j` and a mask, for
  `j = 0 … 7`), lays the fields of a row side by side (column `k` of the unpacked row is field `k mod 8` of word
  `k / 8`), does the same to the zero points (group `g` of a row is field `g mod 8` of word `g / 8`), cuts each row of
  8192 columns into 64 groups of 128, subtracts the group's zero point, multiplies by the group's scale (read from
  the transposed array) and flattens the groups back into the row. Every step but the arithmetic is a re-indexing, so
  the result at `(n, k)` is read off by following `(n, k)` backwards through the re-indexings: the flat position of
  `(n, k)` is `8192 n + k`, and each coordinate met on the way is a quotient or a remainder of it, which the bounds
  `n, k < 8192` reduce to `n`, `k / 8`, `k mod 8`, `k / 128`, `k / 1024` or `(k / 128) mod 8`.
-/
import proofs.«408348_j46815143526604_4_alg».proof.Proof.Gen.ReferenceIdeal.Read
import proofs.«408348_j46815143526604_4_alg».proof.Proof.Spec

noncomputable section

namespace Cert.Dequant.Ref

open Idealize.ShloMosaic Idealize.ShloMosaic.ValueIdx Cert.ReferenceIdeal Cert.ReferenceIdeal.Read

variable {F : FTy → Type} [FloatOps F]

/-! ### The result's position, regrouped and flattened back -/

/-- Cutting the flat position of `(n, k)` into (row, group of 128 columns, column within the group) and flattening it
    back into (row, column) returns `(n, k)`. -/
theorem regroup_flatten (n k : Fin 8192) : idx_main_v23 (idx_main_v32 (ix2 n k)) = ix2 n k := by
  have hn := n.isLt
  have hk := k.isLt
  funext a
  refine Fin.ext ?_
  match a with
  | ⟨0, _⟩ =>
    show (((n.val * 8192 + k.val) / 8192 * 64 + (n.val * 8192 + k.val) / 128 % 64) * 128 + (n.val * 8192 + k.val) % 128) / 8192 = n.val
    omega
  | ⟨1, _⟩ =>
    show (((n.val * 8192 + k.val) / 8192 * 64 + (n.val * 8192 + k.val) / 128 % 64) * 128 + (n.val * 8192 + k.val) % 128) % 8192 = k.val
    omega

/-! ### The weight's field -/

/-- Column `k` of row `n` of the unpacked weights comes from word `k / 8` of row `n` … -/
theorem weight_word (n k : Fin 8192) :
    idx_main_v3 (idx_main_v5 (idx_main_v10 (ix2 n k))) = ix2 n (⟨k.val / 8, by have := k.isLt; omega⟩ : Fin 1024) := by
  have hn := n.isLt
  have hk := k.isLt
  funext a
  refine Fin.ext ?_
  match a with
  | ⟨0, _⟩ => show (n.val * 8192 + k.val) / 8192 = n.val; omega
  | ⟨1, _⟩ => show (n.val * 8192 + k.val) / 8 % 1024 = k.val / 8; omega

/-- … and is its field `k mod 8`. -/
theorem weight_field_no (n k : Fin 8192) :
    (idx_main_v4 (idx_main_v6 (idx_main_v10 (ix2 n k))) 0).val = k.val % 8 := by
  have hn := n.isLt
  have hk := k.isLt
  show (n.val * 8192 + k.val) % 8 = k.val % 8
  omega

/-- The integer the reference converts at `(n, k)` is field `k mod 8` of the weight word `x[n, k / 8]`. -/
theorem weight_field (x0 : (⟨S8192x1024, .i32⟩ : BufTy).Contents (Elt F)) (n k : Fin 8192) :
    val_main_v23 (F := F) x0 (idx_main_v32 (ix2 n k))
      = nib (x0 (ix2 n (⟨k.val / 8, by have := k.isLt; omega⟩ : Fin 1024))) (k.val % 8) := by
  rw [val_main_v23_apply, regroup_flatten, val_main_v10_apply, val_main_v9_apply, val_main_v7_apply, val_main_v5_apply,
    val_main_v3_apply, val_main_v6_apply, val_main_v4_apply, val_main_v2_apply, val_main_v0_apply, val_main_v1_apply,
    val_main_c_apply, val_main_v8_apply, val_main_c_0_apply, weight_word]
  refine (nib_host _ (idx_main_v4 (idx_main_v6 (idx_main_v10 (ix2 n k))) 0)).trans ?_
  rw [weight_field_no]

/-! ### The zero point's field -/

/-- The group of column `k` is `k / 128`: the (row, group) position the zero points and the scales are read at. -/
theorem group_pos (n k : Fin 8192) :
    idx_main_v25 (idx_main_v27 (idx_main_v32 (ix2 n k))) = ix2 n (⟨k.val / 128, by have := k.isLt; omega⟩ : Fin 64) := by
  have hn := n.isLt
  have hk := k.isLt
  funext a
  refine Fin.ext ?_
  match a with
  | ⟨0, _⟩ => show (n.val * 8192 + k.val) / 8192 = n.val; omega
  | ⟨1, _⟩ => show (n.val * 8192 + k.val) / 128 % 64 = k.val / 128; omega

/-- Group `g` of row `n` of the unpacked zero points comes from word `g / 8` of row `n` … -/
theorem zero_word (n : Fin 8192) (g : Fin 64) :
    idx_main_v14 (idx_main_v16 (idx_main_v21 (ix2 n g))) = ix2 n (⟨g.val / 8, by have := g.isLt; omega⟩ : Fin 8) := by
  have hn := n.isLt
  have hg := g.isLt
  funext a
  refine Fin.ext ?_
  match a with
  | ⟨0, _⟩ => show (n.val * 64 + g.val) / 64 = n.val; omega
  | ⟨1, _⟩ => show (n.val * 64 + g.val) / 8 % 8 = g.val / 8; omega

/-- … and is its field `g mod 8`. -/
theorem zero_field_no (n : Fin 8192) (g : Fin 64) :
    (idx_main_v15 (idx_main_v17 (idx_main_v21 (ix2 n g))) 0).val = g.val % 8 := by
  have hn := n.isLt
  have hg := g.isLt
  show (n.val * 64 + g.val) % 8 = g.val % 8
  omega

/-- The integer the reference converts for the zero point at `(n, k)` is field `(k / 128) mod 8` of the word
    `z[n, k / 1024]`. -/
theorem zero_field (x2 : (⟨S8192x8, .i32⟩ : BufTy).Contents (Elt F)) (n k : Fin 8192) :
    val_main_v25 (F := F) x2 (idx_main_v27 (idx_main_v32 (ix2 n k)))
      = nib (x2 (ix2 n (⟨k.val / 1024, by have := k.isLt; omega⟩ : Fin 8))) (k.val / 128 % 8) := by
  rw [val_main_v25_apply, group_pos, val_main_v21_apply, val_main_v20_apply, val_main_v18_apply, val_main_v16_apply,
    val_main_v14_apply, val_main_v17_apply, val_main_v15_apply, val_main_v13_apply, val_main_v11_apply, val_main_v12_apply,
    val_main_c_1_apply, val_main_v19_apply, val_main_c_2_apply, zero_word]
  refine (nib_host _ (idx_main_v15 (idx_main_v17 (idx_main_v21 (ix2 n (⟨k.val / 128, by have := k.isLt; omega⟩ : Fin 64)))) 0)).trans ?_
  rw [zero_field_no]
  have hw : (⟨(⟨k.val / 128, by have := k.isLt; omega⟩ : Fin 64).val / 8, by have := k.isLt; show k.val / 128 / 8 < 8; omega⟩ : Fin 8)
      = ⟨k.val / 1024, by have := k.isLt; omega⟩ := Fin.ext (by show k.val / 128 / 8 = k.val / 1024; omega)
  rw [hw]

/-! ### The scale -/

/-- The scale the reference multiplies by at `(n, k)` is `s[k / 128, n]`: the scales are stored transposed. -/
theorem scale_at (x1 : (⟨S64x8192, .f32⟩ : BufTy).Contents (Elt F)) (n k : Fin 8192) :
    val_main_v30 (F := F) x1 (idx_main_v32 (ix2 n k))
      = x1 (ix2 (⟨k.val / 128, by have := k.isLt; omega⟩ : Fin 64) n) := by
  have hpos : idx_main_v22 (idx_main_v29 (idx_main_v30 (idx_main_v32 (ix2 n k))))
      = ix2 (⟨k.val / 128, by have := k.isLt; omega⟩ : Fin 64) n := by
    have hn := n.isLt
    have hk := k.isLt
    funext a
    refine Fin.ext ?_
    match a with
    | ⟨0, _⟩ => show (n.val * 8192 + k.val) / 128 % 64 = k.val / 128; omega
    | ⟨1, _⟩ => show (n.val * 8192 + k.val) / 8192 = n.val; omega
  rw [val_main_v30_apply, val_main_v29_apply, val_main_v22_apply, hpos]

/-! ### The reference's result is the specification -/

theorem ref_eq (x0 : (⟨Cert.ReferenceIdeal.S8192x1024, .i32⟩ : BufTy).Contents (Elt F)) (x1 : (⟨Cert.ReferenceIdeal.S64x8192, .f32⟩ : BufTy).Contents (Elt F)) (x2 : (⟨Cert.ReferenceIdeal.S8192x8, .i32⟩ : BufTy).Contents (Elt F)) :
    Cert.ReferenceIdeal.Read.val_main_v32 (F := F) x0 x1 x2 = Cert.Dequant.deq (F := F) x0 x1 x2 := by
  funext i
  obtain ⟨n, k, rfl⟩ : ∃ (n : Fin 8192) (k : Fin 8192), i = ix2 n k := ⟨i 0, i 1, eq_ix2 i⟩
  rw [val_main_v32_apply, val_main_v31_apply, val_main_v28_apply, val_main_v24_apply, weight_field, val_main_v27_apply,
    val_main_v26_apply, zero_field, scale_at]
  rfl

end Cert.Dequant.Ref

end
-- ==== Proof.Pieces.lean ====
/-
  What one run of the kernel body leaves behind, as pure functions of what it read.

  The body keeps a [64, 128] buffer across grid points: at a point whose second coordinate is zero it unpacks the
  [128, 8] block of packed zero points into 64 four-bit fields per row, converts them to floats and stores them
  transposed, one group per row of the buffer; at every point it then reads eight rows of that buffer (the eight groups
  of the point's column chunk), the [128, 128] block of packed weights and the [8, 128] block of scales, and stores the
  dequantized [128, 1024] block. So there are two cases: where the buffer is rewritten, its new contents and the output
  block are functions of the three input blocks alone, the eight rows being read back from what was just stored; where
  it is not, the buffer is as the point before left it and the output block is a function of the weight block, the scale
  block and eight rows of those older contents.
-/
import proofs.«408348_j46815143526604_4_alg».proof.Proof.Gen.KernelIdeal.Frame
import Idealize.ShloMosaic.Lib.Pipeline.Value
import Idealize.ShloMosaic.Lib.Tactic

set_option maxRecDepth 16384

noncomputable section

namespace Cert.KernelIdeal.Deq

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl

/-- A load of a whole rank-2 buffer, held at the contents that read `X`, reads `X`. -/
theorem readAt_whole2 {d : Fin 2 → ℕ} {e : EltTy} (a : Memref sig .tc .vmem ⟨2, d⟩ e) (h : a.IsWhole)
    (X : (⟨2, d⟩ : Shape).Idx → Elt F e)
    (inb : ∀ b, (![0, 0] : Fin 2 → ℕ) b + (⟨2, d⟩ : Shape).size b ≤ (⟨2, d⟩ : Shape).size b) :
    View.readAt (Elt F) a.view (Rect.unit (s := ⟨2, d⟩) ![0, 0] (⟨2, d⟩ : Shape).size inb).toLoadRect (h.unread X) = X := by
  rw [View.readAt_eq_ld, h.read_unread, View.ld_unit_zero hz2]

/-- The eight rows of the carried buffer that the body reads at a grid point: rows `8 c` to `8 c + 7` for the point's
    second coordinate `c`, all 128 lanes. -/
abbrev rows8 (i : grid0.Coords) (X : Vec F S64x128 .f32) : Vec F S8x128 .f32 :=
  View.ld X (Rect.unit (s := S64x128) (k0_off1 i) S8x128.size (k0_off1_inb i))

/-- The output block as a function of the weight block, the eight zero-point rows and the scale block. -/
abbrev blockOf (x0 : Vec F S128x128 .i32) (zs sc : Vec F S8x128 .f32) : Vec F S128x1024 .f32 :=
  k0_pay1 (k0_pay4 x0) (k0_pay5 x0) (k0_pay6 x0) (k0_pay7 x0) (k0_pay8 x0) (k0_pay9 x0) (k0_pay10 x0) (k0_pay11 x0) zs sc

/-- At a point that unpacks the zero points, the carried buffer ends holding the unpacked, converted and transposed
    zero-point block: the one store into it covers it, and its payload reads the whole zero-point block. -/
theorem sout_A (c : Dev nD) (i : grid0.Coords) (a2 : Memref sig .tc .vmem S128x128 .i32) (h2 : a2.IsWhole) (a3 : Memref sig .tc .vmem S8x128 .f32) (h3 : a3.IsWhole) (a4 : Memref sig .tc .vmem S128x8 .i32) (h4 : a4.IsWhole) (a5 : Memref sig .tc .vmem S128x1024 .f32) (h5 : a5.IsWhole) (a6 : Memref sig .tc .vmem S64x128 .f32) (h6 : a6.IsWhole) (hc : cond0_0 i)
    (x0 : Vec F S128x128 .i32) (x1 : Vec F S8x128 .f32) (x2 : Vec F S128x8 .i32) :
    sout0_A_0 c i a2 h2 a3 h3 a4 h4 a5 h5 a6 h6 hc x0 x1 x2 = k0_pay3 (k0_pay2 x2) := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  rw [readAt_whole2 a4 h4 x2]
  rfl

/-- At a point that does not unpack the zero points, the output block is computed from the weight block, eight rows of
    the carried buffer as the point before left it, and the scale block. -/
theorem out_B (c : Dev nD) (i : grid0.Coords) (a2 : Memref sig .tc .vmem S128x128 .i32) (h2 : a2.IsWhole) (a3 : Memref sig .tc .vmem S8x128 .f32) (h3 : a3.IsWhole) (a4 : Memref sig .tc .vmem S128x8 .i32) (h4 : a4.IsWhole) (a5 : Memref sig .tc .vmem S128x1024 .f32) (h5 : a5.IsWhole) (a6 : Memref sig .tc .vmem S64x128 .f32) (h6 : a6.IsWhole) (hc : ¬cond0_0 i)
    (x0 : Vec F S128x128 .i32) (x1 : Vec F S8x128 .f32) (x2 : Vec F S128x8 .i32) (xs0 : Vec F S64x128 .f32) :
    out0_B_3 c i a2 h2 a3 h3 a4 h4 a5 h5 a6 h6 hc x0 x1 x2 xs0 = blockOf x0 (rows8 i xs0) x1 := by
  unfold out0_B_3
  rw [View.read_writes_eq_canon _ _ _ (cover0_B_3 c i a2 h2 a3 h3 a4 h4 a5 h5 a6 h6 hc x0 x1 x2 xs0)]
  unfold kernelRun0_B
  dsimp only
  sl_unfold_words
  rw [View.canon_unit_zero hz2]
  simp only [View.readAt_eq_ld, h2.read_unread, h3.read_unread, h6.read_unread, View.ld_unit_zero (S := S128x128) hz2,
    View.ld_unit_zero (S := S8x128) hz2]
  rfl

/-- At a point that unpacks the zero points, the eight rows are read back from what the same body has just stored. -/
theorem out_A (c : Dev nD) (i : grid0.Coords) (a2 : Memref sig .tc .vmem S128x128 .i32) (h2 : a2.IsWhole) (a3 : Memref sig .tc .vmem S8x128 .f32) (h3 : a3.IsWhole) (a4 : Memref sig .tc .vmem S128x8 .i32) (h4 : a4.IsWhole) (a5 : Memref sig .tc .vmem S128x1024 .f32) (h5 : a5.IsWhole) (a6 : Memref sig .tc .vmem S64x128 .f32) (h6 : a6.IsWhole) (hc : cond0_0 i)
    (x0 : Vec F S128x128 .i32) (x1 : Vec F S8x128 .f32) (x2 : Vec F S128x8 .i32) :
    out0_A_3 c i a2 h2 a3 h3 a4 h4 a5 h5 a6 h6 hc x0 x1 x2 = blockOf x0 (rows8 i (k0_pay3 (k0_pay2 x2))) x1 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2]
  rw [readAt_whole2 a4 h4 x2]
  simp only [View.readAt_eq_ld, h2.read_unread, h3.read_unread, View.read_writes_junk_eq_canon,
    View.canon_unit_zero (S := S64x128) hz2, View.ld_unit_zero (S := S128x128) hz2, View.ld_unit_zero (S := S8x128) hz2]
  rfl

end Cert.KernelIdeal.Deq

end
-- ==== Proof.Carried.lean ====
/-
  What the carried [64, 128] buffer holds after each grid point.

  The grid is 64 row tiles by 8 column chunks, visited row tile by row tile. The first point of a row tile (its position
  a multiple of 8) rewrites the buffer from that row tile's zero-point block; the other seven points leave it alone. So
  after the point at position `n` the buffer holds the unpacked zero points of the block read at position `8 (n / 8)`,
  the first point of `n`'s row tile: by induction on the position, the first point of a tile resetting the claim and
  every other point inheriting it from the point before, whose tile is the same.
-/
import proofs.«408348_j46815143526604_4_alg».proof.Proof.Pieces

set_option maxRecDepth 16384

noncomputable section

namespace Cert.KernelIdeal.Deq

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The first point of the row tile that position `n` lies in. -/
def tileStart (n : ℕ) (h : n < cfg0.N) : Fin cfg0.N := ⟨8 * (n / 8), by omega⟩

/-- At the first point of a tile, the tile starts here. -/
theorem tileStart_of_mod (n : ℕ) (h : n < cfg0.N) (h0 : n % 8 = 0) : tileStart n h = ⟨n, h⟩ :=
  Fin.ext (by show 8 * (n / 8) = n; omega)

/-- At any other point, the tile is the tile of the point before. -/
theorem tileStart_succ (n : ℕ) (h : n + 1 < cfg0.N) (h0 : ¬(n + 1) % 8 = 0) :
    tileStart (n + 1) h = tileStart n (Nat.lt_of_succ_lt h) :=
  Fin.ext (by show 8 * ((n + 1) / 8) = 8 * (n / 8); omega)

/-- After the point at position `n`, the carried buffer holds the unpacked zero points of its row tile's block. -/
theorem carried_eq (c : Dev nD) : ∀ (n : ℕ) (h : n < cfg0.N),
    (outsAt0 m c n h).2 = k0_pay3 (F := F) (k0_pay2 (iblk m c 2 (tileStart n h)))
  | 0, h => by
    rw [outsAt0_A m c ⟨0, h⟩ rfl]
    dsimp only
    rw [tileStart_of_mod 0 h rfl]
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) scM0_0 (Memref.isWhole_whole _) ((hcond0_0 ⟨0, h⟩).mpr rfl)
      (iblk m c 0 ⟨0, h⟩) (iblk m c 1 ⟨0, h⟩) (iblk m c 2 ⟨0, h⟩)
  | n + 1, h => by
    by_cases h0 : (n + 1) % 8 = 0
    · rw [outsAt0_A m c ⟨n + 1, h⟩ h0]
      dsimp only
      rw [tileStart_of_mod (n + 1) h h0]
      exact sout_A c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _)
        ((hcond0_0 ⟨n + 1, h⟩).mpr h0) (iblk m c 0 ⟨n + 1, h⟩) (iblk m c 1 ⟨n + 1, h⟩) (iblk m c 2 ⟨n + 1, h⟩)
    · rw [outsAt0_B m c ⟨n + 1, h⟩ h0]
      dsimp only
      unfold sout0_B_0
      rw [tileStart_succ n h h0]
      exact carried_eq c n (Nat.lt_of_succ_lt h)

end Cert.KernelIdeal.Deq

end
-- ==== Proof.Payload.lean ====
/-
  The idealized kernel's two store payloads, read at an index.

  A 32-bit word packs eight four-bit fields. The kernel reads all eight fields of every word of a tile at once: field
  plane `j` of a word array `x` is the array `(x >> 4 j) & 15`, and the eight planes are laid side by side along a NEW
  last axis, so that position `(r, p, j)` of the stack holds field `j` of the word `x[r, p]`. Reading the stack
  `[a, b, 8]` as the matrix `[a, 8 b]` (same row-major order) puts field `j` of word `p` at column `8 p + j`: column
  `q` is word `q / 8`, field `q mod 8`.

  The scratch payload is that matrix for the zero-point words `z : [128, 8]`, converted to floats and transposed to
  `[64, 128]`: row `g` (a group), lane `r` (a row of the tile) holds field `g mod 8` of `z[r, g / 8]`.

  The output payload is that matrix for the weight words `x0 : [128, 128]`, converted to floats, seen as
  `[128, 8, 128]` (column `q` is group `q / 128`, place `q mod 128`), minus the zero-point slice and times the scale
  slice — each an `[8, 128]` array transposed to `[128, 8]` and repeated along the last axis, so that it is read at
  `(q / 128, r)` — and seen as `[128, 1024]` again.

  Every operation here either acts element by element or moves elements without changing them; each of the latter
  is read at an index by one small lemma, stated over a variable array at explicit coordinates.
-/
import proofs.«408348_j46815143526604_4_alg».proof.Proof.Gen.KernelIdeal.Skeleton
import proofs.«408348_j46815143526604_4_alg».proof.Proof.Spec
import Idealize.ShloMosaic.Lib.Pipeline.Value
import Idealize.ShloMosaic.Lib.ValueIdx
import Idealize.ShloMosaic.Lib.ValueLayout

noncomputable section

namespace Cert.KernelIdeal.Pay

open Idealize.ShloMosaic Idealize.ShloMosaic.ValueIdx Cert.KernelIdeal Cert.KernelIdeal.Gen Cert.Dequant

variable {F : FTy → Type} [FloatOps F]

/-! ## A new last axis of extent one, and eight pieces laid along it -/

/-- A matrix given a new last axis of extent one reads, at `(r, p, u)`, the matrix at `(r, p)`: both positions are
    `r B + p` in row-major order. -/
theorem cast_addLast {α : Type} {A B : ℕ} (v : (⟨2, ![A, B]⟩ : Shape).Idx → α)
    (h : (⟨2, ![A, B]⟩ : Shape).ShapeCasts ⟨3, ![A, B, 1]⟩) (r : Fin A) (p : Fin B) (u : Fin 1) :
    shapeCast ⟨3, ![A, B, 1]⟩ v h (ix3 r p u) = v (ix2 r p) :=
  shapeCast_apply v h _ _ (by
    have hu : u.val = 0 := by omega
    rw [Shape.rowMajor_val_three, Shape.rowMajor_val_two]
    show r.val * B + p.val = (r.val * B + p.val) * 1 + u.val
    rw [hu, Nat.mul_one, Nat.add_zero])

/-- Pieces of extent one laid along the last axis of an `[A, B, 8]` array: position `(r, p, k)` lies in piece `n = k`
    (the `n` pieces before it fill the positions below `n`), at that piece's `(r, p, 0)`. -/
theorem cat_last_piece {α : Type} {A B : ℕ} (xs : List ((s : Shape) × (s.Idx → α)))
    (hc : Shape.Concatenates (xs.map (·.1)) ⟨3, ![A, B, 8]⟩ 2) (n : ℕ) (hn : n < xs.length)
    (y : (⟨3, ![A, B, 1]⟩ : Shape).Idx → α) (hy : xs[n] = ⟨⟨3, ![A, B, 1]⟩, y⟩)
    (hpre : (((xs.take n).map (·.1)).map fun s : Shape =>
      if h : s.rank = (⟨3, ![A, B, 8]⟩ : Shape).rank then s.size ((2 : Fin (⟨3, ![A, B, 8]⟩ : Shape).rank).cast h.symm) else 0).sum = n)
    (r : Fin A) (p : Fin B) (k : Fin 8) (hk : n = k.val) :
    concatenate ⟨3, ![A, B, 8]⟩ 2 xs hc (ix3 r p k) = y (ix3 r p (0 : Fin 1)) :=
  concatenate_apply_piece 2 xs hc (ix3 r p k) n hn ⟨3, ![A, B, 1]⟩ y hy rfl n hpre (ix3 r p (0 : Fin 1))
    (fun b => match b with
      | ⟨0, _⟩ => fun _ => rfl
      | ⟨1, _⟩ => fun _ => rfl
      | ⟨2, _⟩ => fun hb => absurd rfl hb)
    (by show n + 0 = k.val; rw [Nat.add_zero, hk])

/-- EIGHT FIELD PLANES SIDE BY SIDE. If piece `n` of an eight-piece stack along a new last axis is field plane `n` of the
    word array `x`, the stack at `(r, p, k)` is field `k` of the word `x[r, p]`. -/
theorem cat8_nib {A B : ℕ} (x : IVec ⟨2, ![A, B]⟩ 32) (y0 y1 y2 y3 y4 y5 y6 y7 : IVec ⟨3, ![A, B, 1]⟩ 32)
    (hc : Shape.Concatenates [⟨3, ![A, B, 1]⟩, ⟨3, ![A, B, 1]⟩, ⟨3, ![A, B, 1]⟩, ⟨3, ![A, B, 1]⟩, ⟨3, ![A, B, 1]⟩, ⟨3, ![A, B, 1]⟩, ⟨3, ![A, B, 1]⟩, ⟨3, ![A, B, 1]⟩] ⟨3, ![A, B, 8]⟩ 2)
    (h0 : ∀ (r : Fin A) (p : Fin B), y0 (ix3 r p (0 : Fin 1)) = nib (x (ix2 r p)) 0)
    (h1 : ∀ (r : Fin A) (p : Fin B), y1 (ix3 r p (0 : Fin 1)) = nib (x (ix2 r p)) 1)
    (h2 : ∀ (r : Fin A) (p : Fin B), y2 (ix3 r p (0 : Fin 1)) = nib (x (ix2 r p)) 2)
    (h3 : ∀ (r : Fin A) (p : Fin B), y3 (ix3 r p (0 : Fin 1)) = nib (x (ix2 r p)) 3)
    (h4 : ∀ (r : Fin A) (p : Fin B), y4 (ix3 r p (0 : Fin 1)) = nib (x (ix2 r p)) 4)
    (h5 : ∀ (r : Fin A) (p : Fin B), y5 (ix3 r p (0 : Fin 1)) = nib (x (ix2 r p)) 5)
    (h6 : ∀ (r : Fin A) (p : Fin B), y6 (ix3 r p (0 : Fin 1)) = nib (x (ix2 r p)) 6)
    (h7 : ∀ (r : Fin A) (p : Fin B), y7 (ix3 r p (0 : Fin 1)) = nib (x (ix2 r p)) 7)
    (r : Fin A) (p : Fin B) (k : Fin 8) :
    concatenate ⟨3, ![A, B, 8]⟩ 2 [⟨⟨3, ![A, B, 1]⟩, y0⟩, ⟨⟨3, ![A, B, 1]⟩, y1⟩, ⟨⟨3, ![A, B, 1]⟩, y2⟩, ⟨⟨3, ![A, B, 1]⟩, y3⟩, ⟨⟨3, ![A, B, 1]⟩, y4⟩, ⟨⟨3, ![A, B, 1]⟩, y5⟩, ⟨⟨3, ![A, B, 1]⟩, y6⟩, ⟨⟨3, ![A, B, 1]⟩, y7⟩] hc (ix3 r p k) = nib (x (ix2 r p)) k.val := by
  have P := cat_last_piece [⟨⟨3, ![A, B, 1]⟩, y0⟩, ⟨⟨3, ![A, B, 1]⟩, y1⟩, ⟨⟨3, ![A, B, 1]⟩, y2⟩, ⟨⟨3, ![A, B, 1]⟩, y3⟩, ⟨⟨3, ![A, B, 1]⟩, y4⟩, ⟨⟨3, ![A, B, 1]⟩, y5⟩, ⟨⟨3, ![A, B, 1]⟩, y6⟩, ⟨⟨3, ![A, B, 1]⟩, y7⟩] hc
  match k with
  | ⟨0, _⟩ => exact (P 0 (by show 0 < 8; omega) y0 rfl rfl r p _ rfl).trans (h0 r p)
  | ⟨1, _⟩ => exact (P 1 (by show 1 < 8; omega) y1 rfl rfl r p _ rfl).trans (h1 r p)
  | ⟨2, _⟩ => exact (P 2 (by show 2 < 8; omega) y2 rfl rfl r p _ rfl).trans (h2 r p)
  | ⟨3, _⟩ => exact (P 3 (by show 3 < 8; omega) y3 rfl rfl r p _ rfl).trans (h3 r p)
  | ⟨4, _⟩ => exact (P 4 (by show 4 < 8; omega) y4 rfl rfl r p _ rfl).trans (h4 r p)
  | ⟨5, _⟩ => exact (P 5 (by show 5 < 8; omega) y5 rfl rfl r p _ rfl).trans (h5 r p)
  | ⟨6, _⟩ => exact (P 6 (by show 6 < 8; omega) y6 rfl rfl r p _ rfl).trans (h6 r p)
  | ⟨7, _⟩ => exact (P 7 (by show 7 < 8; omega) y7 rfl rfl r p _ rfl).trans (h7 r p)
  | ⟨n + 8, hn⟩ => exact absurd hn (by omega)

/-! ## The scratch payload: the zero-point words' fields, converted and transposed -/

/-- The eight-plane stack of the zero-point words at `(r, p, k)` is field `k` of the word `z[r, p]`: piece `n` is the
    plane `(z >> 4 n) & 15` with a new last axis, and the shift amounts `0, 4, …, 28` are the words of `4 n`. -/
theorem pay2_apply (z : Vec F S128x8 .i32) (r : Fin 128) (p : Fin 8) (k : Fin 8) :
    k0_pay2 z (ix3 r p k) = nib (z (ix2 r p)) k.val := by
  unfold k0_pay2
  exact cat8_nib (A := 128) (B := 8) z _ _ _ _ _ _ _ _ _
    (fun r p => cast_addLast _ _ r p 0) (fun r p => cast_addLast _ _ r p 0) (fun r p => cast_addLast _ _ r p 0)
    (fun r p => cast_addLast _ _ r p 0) (fun r p => cast_addLast _ _ r p 0) (fun r p => cast_addLast _ _ r p 0)
    (fun r p => cast_addLast _ _ r p 0) (fun r p => cast_addLast _ _ r p 0) r p k

/-- The scratch payload of any `[128, 8, 8]` stack `v`, at row `g` and lane `r`: the stack read as `[128, 64]` has
    `(r, g)` at position `64 r + g = (8 r + g / 8) 8 + g mod 8`, so it is `v[r, g / 8, g mod 8]` converted to a float;
    the transpose swaps the two coordinates and the last cast keeps the shape. -/
theorem pay3_apply (v : IVec S128x8x8 32) (g : Fin 64) (r : Fin 128) :
    k0_pay3 (F := F) v (ix2 g r)
      = FloatOps.sitofp .f32 (v (ix3 r (⟨g.val / 8, by omega⟩ : Fin 8) (⟨g.val % 8, by omega⟩ : Fin 8))) := by
  unfold k0_pay3
  rw [shapeCast_self]
  refine (transpose_ix2_apply _ _ g r).trans ?_
  refine congrArg (FloatOps.sitofp .f32) ?_
  refine shapeCast_apply v _ (ix2 r g) _ ?_
  rw [Shape.rowMajor_val_three, Shape.rowMajor_val_two]
  show (r.val * 8 + g.val / 8) * 8 + g.val % 8 = r.val * 64 + g.val
  omega

/-- The scratch payload at row `g` (a group number, below 64) and lane `r` (a row of the tile, below 128): field
    `g mod 8` of the zero-point word `z[r, g / 8]`, as a float. -/
theorem scr_pay_apply (z : Vec F S128x8 .i32) (g : Fin 64) (r : Fin 128) :
    k0_pay3 (F := F) (k0_pay2 z) (ix2 g r)
      = FloatOps.sitofp .f32 (nib (z (ix2 r (⟨g.val / 8, by omega⟩ : Fin 8))) (g.val % 8)) :=
  (pay3_apply _ g r).trans (congrArg (FloatOps.sitofp .f32) (pay2_apply z r _ _))

/-! ## The output payload: the weight words' fields, minus the zero point, times the scale -/

/-- The eight-plane stack of the weight words at `(r, p, k)` is field `k` of the word `x0[r, p]`. -/
theorem planes_apply (x0 : Vec F S128x128 .i32) (hc) (r : Fin 128) (p : Fin 128) (k : Fin 8) :
    concatenate S128x128x8 2 [⟨S128x128x1, k0_pay11 x0⟩, ⟨S128x128x1, shapeCast S128x128x1 (k0_pay4 x0) shapeCasts_S128x128_S128x128x1⟩,
        ⟨S128x128x1, shapeCast S128x128x1 (k0_pay5 x0) shapeCasts_S128x128_S128x128x1⟩, ⟨S128x128x1, shapeCast S128x128x1 (k0_pay6 x0) shapeCasts_S128x128_S128x128x1⟩,
        ⟨S128x128x1, shapeCast S128x128x1 (k0_pay7 x0) shapeCasts_S128x128_S128x128x1⟩, ⟨S128x128x1, shapeCast S128x128x1 (k0_pay8 x0) shapeCasts_S128x128_S128x128x1⟩,
        ⟨S128x128x1, shapeCast S128x128x1 (k0_pay9 x0) shapeCasts_S128x128_S128x128x1⟩, ⟨S128x128x1, shapeCast S128x128x1 (k0_pay10 x0) shapeCasts_S128x128_S128x128x1⟩] hc (ix3 r p k)
      = nib (x0 (ix2 r p)) k.val :=
  cat8_nib (A := 128) (B := 128) x0 _ _ _ _ _ _ _ _ hc
    (fun r p => by unfold k0_pay11; exact cast_addLast _ _ r p 0) (fun r p => cast_addLast _ _ r p 0) (fun r p => cast_addLast _ _ r p 0)
    (fun r p => cast_addLast _ _ r p 0) (fun r p => cast_addLast _ _ r p 0) (fun r p => cast_addLast _ _ r p 0)
    (fun r p => cast_addLast _ _ r p 0) (fun r p => cast_addLast _ _ r p 0) r p k

/-- The weights' float array seen as `[128, 8, 128]`: for any `[128, 128, 8]` stack `W`, position `(r, q / 128, q mod 128)`
    is column `q` of the `[128, 1024]` matrix, which is `W[r, q / 8, q mod 8]` — all three are position `1024 r + q`. -/
theorem weights_apply (W : IVec S128x128x8 32) (r : Fin 128) (q : Fin 1024) :
    shapeCast S128x8x128 (sitofp (F := F) .f32 (shapeCast S128x1024 W shapeCasts_S128x128x8_S128x1024)) shapeCasts_S128x1024_S128x8x128
        (ix3 r (⟨q.val / 128, by omega⟩ : Fin 8) (⟨q.val % 128, by omega⟩ : Fin 128))
      = FloatOps.sitofp .f32 (W (ix3 r (⟨q.val / 8, by omega⟩ : Fin 128) (⟨q.val % 8, by omega⟩ : Fin 8))) := by
  refine (shapeCast_apply _ _ _ (ix2 r q) ?_).trans ?_
  · rw [Shape.rowMajor_val_three, Shape.rowMajor_val_two]
    show r.val * 1024 + q.val = (r.val * 8 + q.val / 128) * 128 + q.val % 128
    omega
  · refine congrArg (FloatOps.sitofp .f32) ?_
    refine shapeCast_apply W _ (ix2 r q) _ ?_
    rw [Shape.rowMajor_val_three, Shape.rowMajor_val_two]
    show (r.val * 128 + q.val / 8) * 8 + q.val % 8 = r.val * 1024 + q.val
    omega

/-- An `[8, 128]` slice transposed, given a new last axis and repeated along it to `[128, 8, 128]`, reads at `(r, a, b)`
    the slice at `(a, r)`, whatever `b`. -/
theorem slice_apply {α : Type} (v : S8x128.Idx → α) (r : Fin 128) (a : Fin 8) (b : Fin 128) :
    broadcastTo S128x8x128 (shapeCast S128x8x1 (transpose S128x8 [1, 0] v transposes_S8x128_p1_0_S128x8) shapeCasts_S128x8_S128x8x1)
        broadcasts_S128x8x1_S128x8x128 (ix3 r a b) = v (ix2 a r) := by
  refine (broadcastTo_apply _ _ (ix3 r a b) (ix3 r a (0 : Fin 1)) fun ax => ?_).trans ?_
  · match ax with
    | ⟨0, _⟩ => rfl
    | ⟨1, _⟩ => rfl
    | ⟨2, _⟩ => rfl
  · exact (cast_addLast _ _ r a 0).trans (transpose_ix2_apply v _ r a)

/-- A product of differences seen as `[128, 1024]` again: column `q` of row `r` is position `(r, q / 128, q mod 128)`. -/
theorem out_cast_apply {α : Type} (X : S128x8x128.Idx → α) (r : Fin 128) (q : Fin 1024) :
    shapeCast S128x1024 X shapeCasts_S128x8x128_S128x1024 (ix2 r q)
      = X (ix3 r (⟨q.val / 128, by omega⟩ : Fin 8) (⟨q.val % 128, by omega⟩ : Fin 128)) := by
  refine shapeCast_apply X _ (ix2 r q) _ ?_
  rw [Shape.rowMajor_val_three, Shape.rowMajor_val_two]
  show (r.val * 8 + q.val / 128) * 128 + q.val % 128 = r.val * 1024 + q.val
  omega

/-- The output payload at row `r` (below 128) and column `q` (below 1024): field `q mod 8` of the weight word
    `x0[r, q / 8]` as a float, minus the zero-point slice `zs` at `(q / 128, r)`, times the scale slice `sc` at
    `(q / 128, r)`. -/
theorem out_pay_apply (x0 : Vec F S128x128 .i32) (zs sc : Vec F S8x128 .f32) (r : Fin 128) (q : Fin 1024) :
    k0_pay1 (k0_pay4 x0) (k0_pay5 x0) (k0_pay6 x0) (k0_pay7 x0) (k0_pay8 x0) (k0_pay9 x0) (k0_pay10 x0) (k0_pay11 x0) zs sc (ix2 r q)
      = FloatOps.mulf (FloatOps.subf (FloatOps.sitofp .f32 (nib (x0 (ix2 r (⟨q.val / 8, by omega⟩ : Fin 128))) (q.val % 8))) (zs (ix2 (⟨q.val / 128, by omega⟩ : Fin 8) r))) (sc (ix2 (⟨q.val / 128, by omega⟩ : Fin 8) r)) := by
  unfold k0_pay1
  refine (out_cast_apply _ r q).trans ?_
  refine congrArg₂ FloatOps.mulf (congrArg₂ FloatOps.subf ?_ ?_) ?_
  · refine (weights_apply _ r q).trans (congrArg (FloatOps.sitofp .f32) ?_)
    exact planes_apply x0 _ r _ _
  · exact slice_apply zs r _ _
  · exact slice_apply sc r _ _

end Cert.KernelIdeal.Pay

end
-- ==== Proof.Blocks.lean ====
/-
  Each input block of the dequantization kernel at a grid point, read at an index from its argument array, and the
  eight rows of the carried buffer the body reads there.

  The grid is 64 by 8, row-major: point `t` is row tile `t / 8`, column chunk `t mod 8`. The packed weights
  [8192, 1024] are cut into blocks of 128 by 128 words indexed by (row tile, chunk); the scales, stored transposed as
  [64, 8192], into blocks of 8 groups by 128 rows indexed by (chunk, row tile); the packed zero points [8192, 8] into
  blocks of 128 rows by all 8 words indexed by the row tile alone, so the eight points of a row tile read one and the
  same block. The body reads rows `8 * chunk` to `8 * chunk + 7` of a [64, 128] buffer carried from point to point.
  In every case an element's place in the array is, axis by axis, block index × block size + its coordinate inside
  the block.
-/
import proofs.«408348_j46815143526604_4_alg».proof.Proof.Gen.KernelIdeal.Frame
import Idealize.ShloMosaic.Lib.Pipeline.Value
import Idealize.ShloMosaic.Lib.ValueIdx

set_option maxRecDepth 16384

noncomputable section

namespace Cert.KernelIdeal.Deq

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The row tile and the column chunk of grid point t: the grid is 64 by 8, row-major. -/
def rowTile (t : Fin cfg0.N) : Fin 64 := ⟨t.val / 8, by have h := t.isLt; have hN : cfg0.N = 512 := N_0; omega⟩
def chunk (t : Fin cfg0.N) : Fin 8 := ⟨t.val % 8, Nat.mod_lt _ (by decide)⟩
abbrev xarr (c : Dev nD) : Vec F S8192x1024 .i32 := V m c main_arg0
abbrev sarr (c : Dev nD) : Vec F S64x8192 .f32 := V m c main_arg1
abbrev zarr (c : Dev nD) : Vec F S8192x8 .i32 := V m c main_arg2
abbrev xblk (c : Dev nD) (t : Fin cfg0.N) : Vec F S128x128 .i32 := iblk m c 0 t
abbrev sblk (c : Dev nD) (t : Fin cfg0.N) : Vec F S8x128 .f32 := iblk m c 1 t
abbrev zblk (c : Dev nD) (t : Fin cfg0.N) : Vec F S128x8 .i32 := iblk m c 2 t

/-! ### The index maps over the grid

Window 0 (the packed weights) is indexed by (row tile, column chunk), window 1 (the transposed scales) by
(column chunk, row tile), window 2 (the packed zero points) by (row tile, 0); the carried buffer is read from row
`8 * chunk` on. Each is a fact about the 512 grid points, `t` having coordinates `(t / 8, t mod 8)`. -/

theorem index_x : ∀ t : Fin cfg0.N, win0_0.index t (0 : Fin 2) = t.val / 8 ∧ win0_0.index t (1 : Fin 2) = t.val % 8 :=
  (by decide +kernel : ∀ t : Fin grid0.N, _)
theorem index_s : ∀ t : Fin cfg0.N, win0_1.index t (0 : Fin 2) = t.val % 8 ∧ win0_1.index t (1 : Fin 2) = t.val / 8 :=
  (by decide +kernel : ∀ t : Fin grid0.N, _)
theorem index_z : ∀ t : Fin cfg0.N, win0_2.index t (0 : Fin 2) = t.val / 8 ∧ win0_2.index t (1 : Fin 2) = 0 :=
  (by decide +kernel : ∀ t : Fin grid0.N, _)
theorem off_rows : ∀ t : Fin cfg0.N, k0_off1 (grid0.coords t) (0 : Fin 2) = 8 * (t.val % 8) ∧ k0_off1 (grid0.coords t) (1 : Fin 2) = 0 :=
  (by decide +kernel : ∀ t : Fin grid0.N, _)

/-! ### Each input block read at an index

An element of a block sits in the array at block index × block size + its coordinate inside the block, axis by axis. -/

theorem xblk_apply (c : Dev nD) (t : Fin cfg0.N) (r p : Fin 128) :
    xblk m c t (ix2 r p) = xarr m c (ix2 (⟨128 * (rowTile t).val + r.val, by have := (rowTile t).isLt; have := r.isLt; omega⟩ : Fin 8192) (⟨128 * (chunk t).val + p.val, by have := (chunk t).isLt; have := p.isLt; omega⟩ : Fin 1024)) := by
  show V m c main_arg0 (((cfg0.win 0).blk t).view.emb (ix2 r p)) = V m c main_arg0 _
  refine congrArg _ ?_
  funext (a : Fin 2)
  refine Fin.ext ?_
  match a with
  | ⟨0, _⟩ =>
    show win0_0.index t 0 * 128 + 1 * r.val = 128 * (t.val / 8) + r.val
    rw [(index_x t).1]; omega
  | ⟨1, _⟩ =>
    show win0_0.index t 1 * 128 + 1 * p.val = 128 * (t.val % 8) + p.val
    rw [(index_x t).2]; omega

theorem sblk_apply (c : Dev nD) (t : Fin cfg0.N) (g : Fin 8) (r : Fin 128) :
    sblk m c t (ix2 g r) = sarr m c (ix2 (⟨8 * (chunk t).val + g.val, by have := (chunk t).isLt; have := g.isLt; omega⟩ : Fin 64) (⟨128 * (rowTile t).val + r.val, by have := (rowTile t).isLt; have := r.isLt; omega⟩ : Fin 8192)) := by
  show V m c main_arg1 (((cfg0.win 1).blk t).view.emb (ix2 g r)) = V m c main_arg1 _
  refine congrArg _ ?_
  funext (a : Fin 2)
  refine Fin.ext ?_
  match a with
  | ⟨0, _⟩ =>
    show win0_1.index t 0 * 8 + 1 * g.val = 8 * (t.val % 8) + g.val
    rw [(index_s t).1]; omega
  | ⟨1, _⟩ =>
    show win0_1.index t 1 * 128 + 1 * r.val = 128 * (t.val / 8) + r.val
    rw [(index_s t).2]; omega

theorem zblk_apply (c : Dev nD) (t : Fin cfg0.N) (r : Fin 128) (pz : Fin 8) :
    zblk m c t (ix2 r pz) = zarr m c (ix2 (⟨128 * (rowTile t).val + r.val, by have := (rowTile t).isLt; have := r.isLt; omega⟩ : Fin 8192) pz) := by
  show V m c main_arg2 (((cfg0.win 2).blk t).view.emb (ix2 r pz)) = V m c main_arg2 _
  refine congrArg _ ?_
  funext (a : Fin 2)
  refine Fin.ext ?_
  match a with
  | ⟨0, _⟩ =>
    show win0_2.index t 0 * 128 + 1 * r.val = 128 * (t.val / 8) + r.val
    rw [(index_z t).1]; omega
  | ⟨1, _⟩ =>
    show win0_2.index t 1 * 8 + 1 * pz.val = pz.val
    rw [(index_z t).2]; omega

/-- The zero-point block depends on the row tile only: every point of a row tile reads the block its first point read. -/
theorem zblk_first (c : Dev nD) (t : Fin cfg0.N) (t0 : Fin cfg0.N) (h : t0.val = 8 * (t.val / 8)) : zblk m c t = zblk m c t0 := by
  funext i
  obtain ⟨r, pz, rfl⟩ : ∃ (r : Fin 128) (pz : Fin 8), i = ix2 r pz := ⟨i 0, i 1, eq_ix2 i⟩
  rw [zblk_apply, zblk_apply]
  refine congrArg (zarr m c) ?_
  funext (a : Fin 2)
  refine Fin.ext ?_
  match a with
  | ⟨0, _⟩ =>
    show 128 * (t.val / 8) + r.val = 128 * (t0.val / 8) + r.val
    omega
  | ⟨1, _⟩ => rfl

/-- The eight rows of a [64, 128] array that the body reads at point t are rows 8 * chunk to 8 * chunk + 7. -/
theorem rows8_apply (t : Fin cfg0.N) (X : Vec F S64x128 .f32) (g : Fin 8) (r : Fin 128) :
    View.ld X (Rect.unit (s := S64x128) (k0_off1 (grid0.coords t)) S8x128.size (k0_off1_inb (grid0.coords t))) (ix2 g r)
      = X (ix2 (⟨8 * (chunk t).val + g.val, by have := (chunk t).isLt; have := g.isLt; omega⟩ : Fin 64) r) := by
  show X ((Rect.unit (s := S64x128) (k0_off1 (grid0.coords t)) S8x128.size (k0_off1_inb (grid0.coords t))).idx (ix2 g r)) = X _
  refine congrArg _ ?_
  funext (a : Fin 2)
  refine Fin.ext ?_
  match a with
  | ⟨0, _⟩ =>
    show k0_off1 (grid0.coords t) 0 + 1 * g.val = 8 * (t.val % 8) + g.val
    rw [(off_rows t).1]; omega
  | ⟨1, _⟩ =>
    show k0_off1 (grid0.coords t) 1 + 1 * r.val = r.val
    rw [(off_rows t).2]; omega

end Cert.KernelIdeal.Deq

end
-- ==== Proof.WholeArray.lean ====
/-
  The idealized kernel's result array is the dequantized array.

  Every grid point's output block has one form: the dequantizing function of the point's weight block, eight rows of the
  unpacked zero points of the point's row tile, and the point's scale block. At the first point of a row tile the body
  has just stored those unpacked zero points and reads them back; at the other points it reads what the first point
  stored, because nothing in between writes the carried buffer and the zero-point block depends on the row tile only.
  Read at row `r` and column `q` of the block, that form is the specification at row `128 i + r` and column
  `1024 c + q` of the array, `i` the row tile and `c` the column chunk: the weight word `q / 8` of the block is word
  `128 c + q / 8` of the row, field `q mod 8` in both; the group `q / 128` of the chunk is group `8 c + q / 128` of the
  row, whose zero point is field `(8 c + q / 128) mod 8` of zero-point word `c` and whose scale is row `8 c + q / 128`
  of the transposed scales. The blocks tile the array, so the array ends holding the specification everywhere.
-/
import proofs.«408348_j46815143526604_4_alg».proof.Proof.Carried
import proofs.«408348_j46815143526604_4_alg».proof.Proof.Payload
import proofs.«408348_j46815143526604_4_alg».proof.Proof.Blocks
import proofs.«408348_j46815143526604_4_alg».proof.Proof.Gen.KernelIdeal.Value

set_option maxRecDepth 16384

noncomputable section

namespace Cert.KernelIdeal.Deq

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay Cert.Dequant

variable {F : FTy → Type} [FloatOps F]
variable (m : (ℓ : Loc nD τ sig) → Buf (Elt F) ℓ) (ρ : Dev nD → PrngReg)

/-- Every point's output block: the dequantizing function of its weight block, eight rows of its row tile's unpacked
    zero points, and its scale block. -/
theorem block_eq (c : Dev nD) (t : Fin cfg0.N) :
    (outsAt0 m c t.val t.isLt).1
      = blockOf (xblk m c t) (rows8 (grid0.coords t) (k0_pay3 (F := F) (k0_pay2 (zblk m c t)))) (sblk m c t) := by
  by_cases h0 : t.val % 8 = 0
  · rw [outsAt0_A m c t h0]
    dsimp only
    exact out_A c (grid0.coords t) (ms0_0 t) (hs0_0 t) (ms0_1 t) (hs0_1 t) (ms0_2 t) (hs0_2 t) (ms0_3 t) (hs0_3 t) scM0_0
      (Memref.isWhole_whole _) ((hcond0_0 t).mpr h0) (iblk m c 0 t) (iblk m c 1 t) (iblk m c 2 t)
  · rw [outsAt0_B m c t h0]
    dsimp only
    rw [out_B c (grid0.coords t) (ms0_0 t) (hs0_0 t) (ms0_1 t) (hs0_1 t) (ms0_2 t) (hs0_2 t) (ms0_3 t) (hs0_3 t) scM0_0
      (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2]
    have hS : (outsAt0 m c (t.val - 1) (Nat.lt_of_le_of_lt (Nat.sub_le _ _) t.isLt)).2
        = k0_pay3 (F := F) (k0_pay2 (zblk m c t)) :=
      (carried_eq m c (t.val - 1) (Nat.lt_of_le_of_lt (Nat.sub_le _ _) t.isLt)).trans
        (congrArg (fun z : Vec F S128x8 .i32 => k0_pay3 (F := F) (k0_pay2 z))
          (zblk_first m c t (tileStart (t.val - 1) (Nat.lt_of_le_of_lt (Nat.sub_le _ _) t.isLt))
            (by show 8 * ((t.val - 1) / 8) = 8 * (t.val / 8); omega)).symm)
    rw [hS]

/-- The specification's three reads agree when their coordinates do. -/
theorem deq_form {x : IVec SX 32} {s : FVec F SS .f32} {z : IVec SZ 32}
    {a a' : Fin 8192} {b b' : Fin 1024} {j j' : ℕ} {a2 a2' : Fin 8192} {p p' : Fin 8} {k k' : ℕ} {g g' : Fin 64}
    {a3 a3' : Fin 8192}
    (ha : a.val = a'.val) (hb : b.val = b'.val) (hj : j = j') (ha2 : a2.val = a2'.val) (hp : p.val = p'.val) (hk : k = k')
    (hg : g.val = g'.val) (ha3 : a3.val = a3'.val) :
    FloatOps.mulf (FloatOps.subf (FloatOps.sitofp .f32 (nib (x (ix2 a b)) j)) (FloatOps.sitofp .f32 (nib (z (ix2 a2 p)) k)))
        (s (ix2 g a3))
      = FloatOps.mulf
          (FloatOps.subf (FloatOps.sitofp .f32 (nib (x (ix2 a' b')) j')) (FloatOps.sitofp .f32 (nib (z (ix2 a2' p')) k')))
          (s (ix2 g' a3')) := by
  obtain rfl := Fin.ext ha; obtain rfl := Fin.ext hb; subst hj; obtain rfl := Fin.ext ha2; obtain rfl := Fin.ext hp
  subst hk; obtain rfl := Fin.ext hg; obtain rfl := Fin.ext ha3; rfl

/-- The block's form at row `r`, column `q` is the specification at row `128 i + r`, column `1024 c + q`. -/
theorem block_at (c : Dev nD) (t : Fin cfg0.N) (r : Fin 128) (q : Fin 1024) :
    blockOf (xblk m c t) (rows8 (grid0.coords t) (k0_pay3 (F := F) (k0_pay2 (zblk m c t)))) (sblk m c t) (ix2 r q)
      = deq (F := F) (xarr m c) (sarr m c) (zarr m c)
          (ix2 (⟨128 * (rowTile t).val + r.val, by have := (rowTile t).isLt; have := r.isLt; omega⟩ : Fin 8192)
            (⟨1024 * (chunk t).val + q.val, by have := (chunk t).isLt; have := q.isLt; omega⟩ : Fin 8192)) := by
  have hq : q.val < 1024 := q.isLt
  have hc : (chunk t).val < 8 := (chunk t).isLt
  unfold blockOf
  rw [out_pay_apply]
  unfold rows8
  rw [rows8_apply t _ (⟨q.val / 128, by omega⟩ : Fin 8) r, scr_pay_apply, xblk_apply, sblk_apply, zblk_apply]
  unfold deq
  refine deq_form rfl ?_ ?_ rfl ?_ ?_ ?_ rfl
  · show 128 * (chunk t).val + q.val / 8 = (1024 * (chunk t).val + q.val) / 8; omega
  · show q.val % 8 = (1024 * (chunk t).val + q.val) % 8; omega
  · show (8 * (chunk t).val + q.val / 128) / 8 = (1024 * (chunk t).val + q.val) / 1024; omega
  · show (8 * (chunk t).val + q.val / 128) % 8 = (1024 * (chunk t).val + q.val) / 128 % 8; omega
  · show 8 * (chunk t).val + q.val / 128 = (1024 * (chunk t).val + q.val) / 128; omega

/-- The output window's block index at point `t`: the row tile and the column chunk. -/
theorem idx3 : ∀ t : Fin cfg0.N, win0_3.index t (0 : Fin 2) = t.val / 8 ∧ win0_3.index t (1 : Fin 2) = t.val % 8 :=
  (by decide +kernel : ∀ t : Fin grid0.N, _)

/-- Where the output block of point `t` sits in the array. -/
theorem emb3 (t : Fin cfg0.N) (r : Fin 128) (q : Fin 1024) :
    ((cfg0.win 3).blk t).view.emb (ix2 r q)
      = (ix2 (⟨128 * (rowTile t).val + r.val, by have := (rowTile t).isLt; have := r.isLt; omega⟩ : Fin 8192)
          (⟨1024 * (chunk t).val + q.val, by have := (chunk t).isLt; have := q.isLt; omega⟩ : Fin 8192) : S8192x8192.Idx) := by
  obtain ⟨e0, e1⟩ := idx3 t
  funext a; apply Fin.ext
  match a with
  | ⟨0, _⟩ => show win0_3.index t (0 : Fin 2) * 128 + 1 * r.val = 128 * (t.val / 8) + r.val; omega
  | ⟨1, _⟩ => show win0_3.index t (1 : Fin 2) * 1024 + 1 * q.val = 1024 * (t.val % 8) + q.val; omega

/-- What point `t` writes back is block `t` of the specification of the argument arrays. -/
theorem flushed_eq (c : Dev nD) (t : Fin cfg0.N) :
    (dats m 0 c).flushed 3 t
      = ((cfg0.win 3).blk t).view.read (Elt F) (deq (F := F) (xarr m c) (sarr m c) (zarr m c)) := by
  rw [Cert.KernelIdeal.Value.flushed3]
  show (outsAt0 m c t.val t.isLt).1 = _
  rw [block_eq]
  funext j
  obtain ⟨r, q, rfl⟩ : ∃ (r : Fin 128) (q : Fin 1024), j = ix2 r q := ⟨j 0, j 1, eq_ix2 j⟩
  show _ = deq (F := F) (xarr m c) (sarr m c) (zarr m c) (((cfg0.win 3).blk t).view.emb (ix2 r q))
  rw [emb3]
  exact block_at m c t r q

/-- An index of the array is in point `t`'s block iff each coordinate is in the block's range on its axis. -/
theorem mem_blk3 (t : Fin cfg0.N) (i : S8192x8192.Idx) :
    i ∈ ((cfg0.win 3).blk t).view.set ↔ ∀ a : Fin 2, win0_3.index t a * S128x1024.size a ≤ (i a).val
      ∧ (i a).val < win0_3.index t a * S128x1024.size a + S128x1024.size a := by
  show i ∈ ((View.whole main_v0).slice (win0_3.rect t)).set ↔ _
  rw [View.set_slice_whole, Rect.mem_set_unit]
  exact Iff.rfl

/-- The blocks tile the array: row `n`, column `k` is in the block of row tile `n / 128`, column chunk `k / 1024`. -/
theorem cover3 (i : S8192x8192.Idx) :
    ∃ t : Fin cfg0.N, (cfg0.win 3).flush t = true ∧ i ∈ ((cfg0.win 3).blk t).view.set := by
  have h0 : (i 0).val < 8192 := (i 0).isLt
  have h1 : (i 1).val < 8192 := (i 1).isLt
  have hN : cfg0.N = 512 := N_0
  have ht : 8 * ((i 0).val / 128) + (i 1).val / 1024 < cfg0.N := by omega
  obtain ⟨e0, e1⟩ := idx3 ⟨8 * ((i 0).val / 128) + (i 1).val / 1024, ht⟩
  refine ⟨⟨8 * ((i 0).val / 128) + (i 1).val / 1024, ht⟩, flush0_3 _, ?_⟩
  rw [mem_blk3]
  intro a
  match a with
  | ⟨0, _⟩ =>
    show win0_3.index ⟨8 * ((i 0).val / 128) + (i 1).val / 1024, ht⟩ (0 : Fin 2) * 128 ≤ (i 0).val
      ∧ (i 0).val < win0_3.index ⟨8 * ((i 0).val / 128) + (i 1).val / 1024, ht⟩ (0 : Fin 2) * 128 + 128
    rw [e0]; dsimp only; omega
  | ⟨1, _⟩ =>
    show win0_3.index ⟨8 * ((i 0).val / 128) + (i 1).val / 1024, ht⟩ (1 : Fin 2) * 1024 ≤ (i 1).val
      ∧ (i 1).val < win0_3.index ⟨8 * ((i 0).val / 128) + (i 1).val / 1024, ht⟩ (1 : Fin 2) * 1024 + 1024
    rw [e1]; dsimp only; omega

/-- The result array after the run is the specification of the argument arrays. -/
theorem final3 (c : Dev nD) :
    (dats m 0 c).arrAt 3 cfg0.N = deq (F := F) (xarr m c) (sarr m c) (zarr m c) :=
  (dats m 0 c).arrAt_eq_of_cover 3 (deq (F := F) (xarr m c) (sarr m c) (zarr m c)) (fun t _ => flushed_eq m c t) cover3

/-- The run: the result array at the specification of the arguments as launched, the arguments unchanged. -/
theorem run : θ_run defs (onTc (τ := τ) (main (F := F))) ⟨m, fun _ => 0, ρ⟩ fun r => ∀ c : Dev nD,
      r.2.mem ((c : Thread nD τ).loc main_v0)
          = deq (F := F) (m ((c : Thread nD τ).loc main_arg0)) (m ((c : Thread nD τ).loc main_arg1))
              (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (Cert.KernelIdeal.Value.run_blocks m ρ)

end Cert.KernelIdeal.Deq

end
-- ==== Proof.lean ====
/-
  The kernel unpacks four-bit weights and zero points, eight to a 32-bit word, and dequantizes them group by group:
      out[n, k] = (field (k mod 8) of x[n, k / 8]  -  field ((k / 128) mod 8) of z[n, k / 1024])  *  s[k / 128, n],
  a group being 128 consecutive columns and the scales stored transposed. It tiles the rows in 64 tiles of 128 and the
  columns in 8 chunks of 1024 (eight groups, exactly one zero-point word per row), unpacks a row tile's zero points once,
  at the tile's first chunk, into a buffer it keeps for the tile's other seven chunks, and dequantizes one chunk per grid
  point. The reference unpacks both arrays whole and dequantizes in one expression.

  Both compute, element by element, the SAME expression of the same three array entries: the same field read (an
  arithmetic shift and a four-bit mask; the vector unit's shift and the host's are one function at 32 bits), the same
  conversion to a float, one subtraction, one product, in that order. So the two results are equal at every float
  instance, with no algebraic law between them and no use of the inputs' finiteness; at the ideal instance that is the
  claim. `Spec.lean` states the expression; `RefIsDeq.lean` reads the reference's run as it; `Pieces.lean`,
  `Payload.lean`, `Carried.lean`, `Blocks.lean` and `WholeArray.lean` read the kernel's run as it: what one run of
  the body leaves, its payloads at an index, what the kept buffer holds after each grid point (an induction on the
  point), the input blocks at an index, and the blocks tiling the array.

  The three frames are the generated ones (the reference's is its generated run with the result dropped), and the
  idealization rewrote nothing, so its conjunct is trivial.
-/
import proofs.«408348_j46815143526604_4_alg».proof.Defs
import proofs.«408348_j46815143526604_4_alg».proof.Proof.Gen.Kernel
import proofs.«408348_j46815143526604_4_alg».proof.Proof.Gen.Kernel.Skeleton
import proofs.«408348_j46815143526604_4_alg».proof.Proof.Gen.Kernel.Launch
import proofs.«408348_j46815143526604_4_alg».proof.Proof.Gen.Kernel.Points
import proofs.«408348_j46815143526604_4_alg».proof.Proof.Gen.Kernel.Frame
import proofs.«408348_j46815143526604_4_alg».proof.Proof.Gen.KernelIdeal
import proofs.«408348_j46815143526604_4_alg».proof.Proof.Gen.KernelIdeal.Skeleton
import proofs.«408348_j46815143526604_4_alg».proof.Proof.Gen.KernelIdeal.Launch
import proofs.«408348_j46815143526604_4_alg».proof.Proof.Gen.KernelIdeal.Points
import proofs.«408348_j46815143526604_4_alg».proof.Proof.Gen.KernelIdeal.Frame
import proofs.«408348_j46815143526604_4_alg».proof.Proof.Gen.ReferenceIdeal
import proofs.«408348_j46815143526604_4_alg».proof.Proof.Gen.Pre_finite_inputs
import proofs.«408348_j46815143526604_4_alg».proof.Proof.Gen.KernelIdeal.Value
import proofs.«408348_j46815143526604_4_alg».proof.Proof.Gen.ReferenceIdeal.Run
import proofs.«408348_j46815143526604_4_alg».proof.Proof.Gen.ReferenceIdeal.Read
import proofs.«408348_j46815143526604_4_alg».proof.Proof.Spec
import proofs.«408348_j46815143526604_4_alg».proof.Proof.RefIsDeq
import proofs.«408348_j46815143526604_4_alg».proof.Proof.WholeArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array and the reference's both end at the
    dequantized array of those arguments. -/
theorem algebraic : Cert.algebraic_KernelIdeal_ReferenceIdeal := by
  intro m ρ m' ρ' _ hagree
  refine ⟨fun c => Cert.Dequant.deq (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Deq.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.Dequant.Ref.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
